-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x26x128 : Shape := ⟨3, ![16384, 26, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_

variable [Facts]

def fn {F : FTy → Type} [FloatOps F] (main_arg0 : FVec F S16384x128 .f32) (main_arg1 : FVec F S16384x26x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  main_v8
-- ==== Kernel.lean ====
abbrev S16384x128 : Shape := ⟨2, ![16384, 128]⟩
abbrev S16384x26x128 : Shape := ⟨3, ![16384, 26, 128]⟩
abbrev S16384x351 : Shape := ⟨2, ![16384, 351]⟩
abbrev S512x128 : Shape := ⟨2, ![512, 128]⟩
abbrev S512x26x128 : Shape := ⟨3, ![512, 26, 128]⟩
abbrev S512x351 : Shape := ⟨2, ![512, 351]⟩
abbrev S512x1x128 : Shape := ⟨3, ![512, 1, 128]⟩
abbrev S512x27x128 : Shape := ⟨3, ![512, 27, 128]⟩
abbrev S512x27x27 : Shape := ⟨3, ![512, 27, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S16384x351, .f32⟩
  | .local _ .vmem, ⟨0, _⟩ => ⟨S512x128, .f32⟩
  | .local _ .vmem, ⟨1, _⟩ => ⟨S512x128, .f32⟩
  | .local _ .vmem, ⟨2, _⟩ => ⟨S512x26x128, .f32⟩
  | .local _ .vmem, ⟨3, _⟩ => ⟨S512x26x128, .f32⟩
  | .local _ .vmem, ⟨4, _⟩ => ⟨S512x351, .f32⟩
  | .local _ .vmem, ⟨5, _⟩ => ⟨S512x351, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x351 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S512x26x128_S512x26x128_0_0_0 : ∀ a, (![0, 0, 0] : Fin 3 → Nat) a + S512x26x128.size a ≤ S512x26x128.size a
  h_S512x26x128 : 0 < S512x26x128.numel
  shapeCasts_S512x128_S512x1x128 : S512x128.ShapeCasts S512x1x128
  concatenates_S512x1x128_S512x26x128_S512x27x128_d1 : Shape.Concatenates [S512x1x128, S512x26x128] S512x27x128 1
  slices_S512x27x27_o0_0_1_S512x1x26 : S512x27x27.Slices ![0, 0, 1] S512x1x26
  shapeCasts_S512x1x26_S512x26 : S512x1x26.ShapeCasts S512x26
  slices_S512x27x27_o0_1_2_S512x1x25 : S512x27x27.Slices ![0, 1, 2] S512x1x25
  shapeCasts_S512x1x25_S512x25 : S512x1x25.ShapeCasts S512x25
  slices_S512x27x27_o0_2_3_S512x1x24 : S512x27x27.Slices ![0, 2, 3] S512x1x24
  shapeCasts_S512x1x24_S512x24 : S512x1x24.ShapeCasts S512x24
  slices_S512x27x27_o0_3_4_S512x1x23 : S512x27x27.Slices ![0, 3, 4] S512x1x23
  shapeCasts_S512x1x23_S512x23 : S512x1x23.ShapeCasts S512x23
  slices_S512x27x27_o0_4_5_S512x1x22 : S512x27x27.Slices ![0, 4, 5] S512x1x22
  shapeCasts_S512x1x22_S512x22 : S512x1x22.ShapeCasts S512x22
  slices_S512x27x27_o0_5_6_S512x1x21 : S512x27x27.Slices ![0, 5, 6] S512x1x21
  shapeCasts_S512x1x21_S512x21 : S512x1x21.ShapeCasts S512x21
  slices_S512x27x27_o0_6_7_S512x1x20 : S512x27x27.Slices ![0, 6, 7] S512x1x20
  shapeCasts_S512x1x20_S512x20 : S512x1x20.ShapeCasts S512x20
  slices_S512x27x27_o0_7_8_S512x1x19 : S512x27x27.Slices ![0, 7, 8] S512x1x19
  shapeCasts_S512x1x19_S512x19 : S512x1x19.ShapeCasts S512x19
  slices_S512x27x27_o0_8_9_S512x1x18 : S512x27x27.Slices ![0, 8, 9] S512x1x18
  shapeCasts_S512x1x18_S512x18 : S512x1x18.ShapeCasts S512x18
  slices_S512x27x27_o0_9_10_S512x1x17 : S512x27x27.Slices ![0, 9, 10] S512x1x17
  shapeCasts_S512x1x17_S512x17 : S512x1x17.ShapeCasts S512x17
  slices_S512x27x27_o0_10_11_S512x1x16 : S512x27x27.Slices ![0, 10, 11] S512x1x16
  shapeCasts_S512x1x16_S512x16 : S512x1x16.ShapeCasts S512x16
  slices_S512x27x27_o0_11_12_S512x1x15 : S512x27x27.Slices ![0, 11, 12] S512x1x15
  shapeCasts_S512x1x15_S512x15 : S512x1x15.ShapeCasts S512x15
  slices_S512x27x27_o0_12_13_S512x1x14 : S512x27x27.Slices ![0, 12, 13] S512x1x14
  shapeCasts_S512x1x14_S512x14 : S512x1x14.ShapeCasts S512x14
  slices_S512x27x27_o0_13_14_S512x1x13 : S512x27x27.Slices ![0, 13, 14] S512x1x13
  shapeCasts_S512x1x13_S512x13 : S512x1x13.ShapeCasts S512x13
  slices_S512x27x27_o0_14_15_S512x1x12 : S512x27x27.Slices ![0, 14, 15] S512x1x12
  shapeCasts_S512x1x12_S512x12 : S512x1x12.ShapeCasts S512x12
  slices_S512x27x27_o0_15_16_S512x1x11 : S512x27x27.Slices ![0, 15, 16] S512x1x11
  shapeCasts_S512x1x11_S512x11 : S512x1x11.ShapeCasts S512x11
  slices_S512x27x27_o0_16_17_S512x1x10 : S512x27x27.Slices ![0, 16, 17] S512x1x10
  shapeCasts_S512x1x10_S512x10 : S512x1x10.ShapeCasts S512x10
  slices_S512x27x27_o0_17_18_S512x1x9 : S512x27x27.Slices ![0, 17, 18] S512x1x9
  shapeCasts_S512x1x9_S512x9 : S512x1x9.ShapeCasts S512x9
  slices_S512x27x27_o0_18_19_S512x1x8 : S512x27x27.Slices ![0, 18, 19] S512x1x8
  shapeCasts_S512x1x8_S512x8 : S512x1x8.ShapeCasts S512x8
  slices_S512x27x27_o0_19_20_S512x1x7 : S512x27x27.Slices ![0, 19, 20] S512x1x7
  shapeCasts_S512x1x7_S512x7 : S512x1x7.ShapeCasts S512x7
  slices_S512x27x27_o0_20_21_S512x1x6 : S512x27x27.Slices ![0, 20, 21] S512x1x6
  shapeCasts_S512x1x6_S512x6 : S512x1x6.ShapeCasts S512x6
  slices_S512x27x27_o0_21_22_S512x1x5 : S512x27x27.Slices ![0, 21, 22] S512x1x5
  shapeCasts_S512x1x5_S512x5 : S512x1x5.ShapeCasts S512x5
  slices_S512x27x27_o0_22_23_S512x1x4 : S512x27x27.Slices ![0, 22, 23] S512x1x4
  shapeCasts_S512x1x4_S512x4 : S512x1x4.ShapeCasts S512x4
  slices_S512x27x27_o0_23_24_S512x1x3 : S512x27x27.Slices ![0, 23, 24] S512x1x3
  shapeCasts_S512x1x3_S512x3 : S512x1x3.ShapeCasts S512x3
  slices_S512x27x27_o0_24_25_S512x1x2 : S512x27x27.Slices ![0, 24, 25] S512x1x2
  shapeCasts_S512x1x2_S512x2 : S512x1x2.ShapeCasts S512x2
  slices_S512x27x27_o0_25_26_S512x1x1 : S512x27x27.Slices ![0, 25, 26] S512x1x1
  shapeCasts_S512x1x1_S512x1 : S512x1x1.ShapeCasts S512x1
  concatenates_S512x26_S512x25_S512x24_S512x23_S512x22_S512x21_S512x20_S512x19_S512x18_S512x17_S512x16_S512x15_S512x14_S512x13_S512x12_S512x11_S512x10_S512x9_S512x8_S512x7_S512x6_S512x5_S512x4_S512x3_S512x2_S512x1_S512x351_d1 : Shape.Concatenates [S512x26, S512x25, S512x24, S512x23, S512x22, S512x21, S512x20, S512x19, S512x18, S512x17, S512x16, S512x15, S512x14, S512x13, S512x12, S512x11, S512x10, S512x9, S512x8, S512x7, S512x6, S512x5, S512x4, S512x3, S512x2, S512x1] S512x351 1
  inb_S512x351_S512x351_0_0 : ∀ a, (![0, 0] : Fin 2 → Nat) a + S512x351.size a ≤ S512x351.size a
  h_S512x351 : 0 < S512x351.numel
  dot_S512x27x128_S512x27x128_S512x27x27_2_2_1_1_0_0_wf : DotDims.WF S512x27x128 S512x27x128 S512x27x27 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S16384x26x128.size a
  hwx0_1 : ∀ i : grid0.Coords, EltTy.bits .f32 = 32 ∨ (Rect.block (s := S16384x26x128) S512x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x351.size a ≤ S16384x351.size a
  hwx0_2 : ∀ i : grid0.Coords, EltTy.bits .f32 = 32 ∨ (Rect.block (s := S16384x351) S512x351.size (cc0_transform_2 i) (hinb0_2 i)).WholeWords (EltTy.packing .f32)

variable [Facts₀]

def dot_S512x27x128_S512x27x128_S512x27x27_2_2_1_1_0_0 : DotDims S512x27x128 S512x27x128 S512x27x27 where
  lhsContracting := [2]
  rhsContracting := [2]
  lhsNonContracting := [1]
  rhsNonContracting := [1]
  lhsBatch := [0]
  rhsBatch := [0]
  wf := dot_S512x27x128_S512x27x128_S512x27x27_2_2_1_1_0_0_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x351.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x26x128 : Shape := ⟨3, ![16384, 26, 128]⟩
abbrev S351 : Shape := ⟨1, ![351]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S351x1 : Shape := ⟨2, ![351, 1]⟩
abbrev S351x2 : Shape := ⟨2, ![351, 2]⟩
abbrev S16384x351 : Shape := ⟨2, ![16384, 351]⟩

abbrev nBuf : Space → Nat
  | .hbm => 21
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S351, .i32⟩
  | .hbm, ⟨3, _⟩ => ⟨S351, .i1⟩
  | .hbm, ⟨4, _⟩ => ⟨S351, .i32⟩
  | .hbm, ⟨5, _⟩ => ⟨S351, .i1⟩
  | .hbm, ⟨6, _⟩ => ⟨S16384x1x128, .f32⟩
  | .hbm, ⟨7, _⟩ => ⟨S16384x27x128, .f32⟩
  | .hbm, ⟨8, _⟩ => ⟨S16384x27x27, .f32⟩
  | .hbm, ⟨9, _⟩ => ⟨S_, .i32⟩
  | .hbm, ⟨10, _⟩ => ⟨S351, .i32⟩
  | .hbm, ⟨11, _⟩ => ⟨S351, .i32⟩
  | .hbm, ⟨12, _⟩ => ⟨S351, .i32⟩
  | .hbm, ⟨13, _⟩ => ⟨S_, .i32⟩
  | .hbm, ⟨14, _⟩ => ⟨S351, .i32⟩
  | .hbm, ⟨15, _⟩ => ⟨S351, .i32⟩
  | .hbm, ⟨16, _⟩ => ⟨S351, .i32⟩
  | .hbm, ⟨17, _⟩ => ⟨S351x1, .i32⟩
  | .hbm, ⟨18, _⟩ => ⟨S351x1, .i32⟩
  | .hbm, ⟨19, _⟩ => ⟨S351x2, .i32⟩
  | .hbm, ⟨20, _⟩ => ⟨S16384x351, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  dot_S16384x27x128_S16384x27x128_S16384x27x27_2_2_1_1_0_0_wf : DotDims.WF S16384x27x128 S16384x27x128 S16384x27x27 [2] [2] [1] [1] [0] [0]
  gather_S16384x27x27_S351x2_S16384x351_0_12_n_n_12_1_1638411_wf : GatherDims.WF S16384x27x27 S351x2 S16384x351 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf

class Facts : Prop extends Facts₀ where

variable [Facts]
-- ==== Proof.Spec.lean ====
/-
  The feature interaction, as mathematics.

  Each batch row r carries 27 feature vectors of length 128: feature 0 is the dense ("bottom") vector
  x r, features 1 … 26 are the embedding vectors e r 0 … e r 25.  The Gram matrix of row r is
  gram r f g = ∑ d, feat r f d · feat r g d, and the result keeps its strict upper triangle, row by
  row: position p of 351 = 26 + 25 + … + 1 holds the pair (triI p, triJ p), the p-th pair (i, j) with
  i < j in row-major order.  Row i of the triangle starts at position rowStart i = i (53 − i) / 2 and
  holds the 26 − i pairs (i, i + 1), …, (i, 26).

  Everything here is stated for any number R of batch rows, so that it serves both a block of 512
  rows and the whole array of 16384.
-/
import Idealize.ShloMosaic.PureOps.Ideal
import Idealize.ShloMosaic.Lib.ValueIdx

noncomputable section

open scoped BigOperators

namespace Cert.Spec

open Idealize.ShloMosaic Idealize.ShloMosaic.ValueIdx

/-- Feature f of batch row r at coordinate d: the dense vector for f = 0, embedding f − 1 otherwise. -/
def feat {R : Nat} (x : (⟨2, ![R, 128]⟩ : Shape).Idx → EReal) (e : (⟨3, ![R, 26, 128]⟩ : Shape).Idx → EReal)
    (r : Fin R) (f : Fin 27) (d : Fin 128) : EReal :=
  if h : f.val = 0 then x (ix2 r d) else e (ix3 r (⟨f.val - 1, by omega⟩ : Fin 26) d)

/-- The Gram matrix entry (f, g) of batch row r: the dot product of features f and g. -/
def gram {R : Nat} (x : (⟨2, ![R, 128]⟩ : Shape).Idx → EReal) (e : (⟨3, ![R, 26, 128]⟩ : Shape).Idx → EReal)
    (r : Fin R) (f g : Fin 27) : EReal :=
  ∑ d : Fin 128, feat x e r f d * feat x e r g d

/-- Where row k of the strict upper triangle starts among the 351 positions. -/
def rowStart (k : Nat) : Nat := k * (53 - k) / 2

/-- The row of the pair at position p: how many of the rows 1 … 26 start at or before p. -/
def triI (p : Fin 351) : Fin 27 :=
  ⟨((List.range 26).countP fun k => decide (rowStart (k + 1) ≤ p.val)) % 27, Nat.mod_lt _ (by decide)⟩

/-- The column of the pair at position p: one past the row, plus the offset of p in its row. -/
def triJ (p : Fin 351) : Fin 27 :=
  ⟨((triI p).val + 1 + (p.val - rowStart (triI p).val)) % 27, Nat.mod_lt _ (by decide)⟩

/-- Position p lies in the span of its row, the row is one of 0 … 25, and the column is the row plus one
    plus the offset: checked position by position. -/
theorem tri_span : ∀ p : Fin 351, rowStart (triI p).val ≤ p.val ∧ p.val < rowStart ((triI p).val + 1)
    ∧ (triI p).val < 26 ∧ (triJ p).val = (triI p).val + 1 + (p.val - rowStart (triI p).val) := by
  decide

/-- The whole result as one function of the two argument arrays. -/
def G (x : (⟨2, ![16384, 128]⟩ : Shape).Idx → EReal) (e : (⟨3, ![16384, 26, 128]⟩ : Shape).Idx → EReal) :
    (⟨2, ![16384, 351]⟩ : Shape).Idx → EReal :=
  fun i => gram (R := 16384) x e (i 0) (triI (i 1)) (triJ (i 1))

end Cert.Spec

end
-- ==== Proof.LibRowSlice.lean ====
/-
  One row of a stack of matrices, from some column on, as a stack of vectors, read at one entry.

  A stack of R matrices with m₁ rows and m₂ columns is cut to its row k and to the n columns
  o, o + 1, …, o + n − 1: a stack of R matrices with one row and n columns.  Forgetting the axis of
  extent one leaves a stack of R vectors of length n.  Entry q of vector r is entry (k, o + q) of
  matrix r: forgetting a unit axis keeps the row-major position ((r · 1 + 0) · n + q = r · n + q), and
  a cut shifts each coordinate by its offset (0 on the stack axis, k on the row axis, o on the
  column axis).

  Stated for any extents and any offsets, the two shape conditions as hypotheses, so that it applies to
  every such cut whatever its row and width.
-/
import Idealize.ShloMosaic.Lib.ValueIdx
import Idealize.ShloMosaic.Lib.Pipeline.Value

namespace Cert.LibRowSlice

open Idealize.ShloMosaic Idealize.ShloMosaic.ValueIdx

/-- Row k of each matrix of a stack, columns o … o + n − 1, with the unit row axis forgotten: entry
    (r, q) is the stack's entry (r, f, g) for the row f = k and the column g = o + q. -/
theorem rowSlice_apply {α : Type} {R m₁ m₂ n : Nat} (k o : Nat)
    (V : (⟨3, ![R, m₁, m₂]⟩ : Shape).Idx → α)
    (hs : (⟨3, ![R, m₁, m₂]⟩ : Shape).Slices ![0, k, o] ⟨3, ![R, 1, n]⟩)
    (hc : (⟨3, ![R, 1, n]⟩ : Shape).ShapeCasts ⟨2, ![R, n]⟩)
    (r : Fin R) (q : Fin n) (f : Fin m₁) (g : Fin m₂) (hf : f.val = k) (hg : g.val = o + q.val) :
    shapeCast ⟨2, ![R, n]⟩ (extractStridedSlice ⟨3, ![R, 1, n]⟩ ![0, k, o] V hs) hc (ix2 r q)
      = V (ix3 r f g) := by
  -- forgetting the unit axis: (r, q) has the row-major position of (r, 0, q)
  refine (shapeCast_apply _ hc (ix2 r q) (ix3 r (0 : Fin 1) q) ?_).trans ?_
  · rw [Shape.rowMajor_val_three, Shape.rowMajor_val_two]
    show (r.val * 1 + 0) * n + q.val = r.val * n + q.val
    rw [Nat.mul_one, Nat.add_zero]
  -- the cut: each coordinate of (r, f, g) is the offset plus the coordinate of (r, 0, q)
  · refine extractStridedSlice_apply _ V hs _ _ fun ax => ?_
    match ax with
    | ⟨0, _⟩ => exact (Nat.zero_add _).symm
    | ⟨1, _⟩ => exact hf
    | ⟨2, _⟩ => exact hg

end Cert.LibRowSlice
-- ==== Proof.LibGram.lean ====
/-
  The Gram matrices of a stack of feature matrices, read at one entry.

  A stack of R matrices, each with 27 rows (features) of length 128, is contracted with itself over
  the length: batch axis 0 on both sides, free axis 1 on both sides, contracted axis 2 on both sides.
  Entry (r, f, g) of the product is the dot product of rows f and g of matrix r, the sum over the 128
  coordinates of the products.  This holds of the matrix unit's product into a zero accumulator and of
  the host's general dot product alike: at the extended reals both are that one finite sum, and the
  sum over the one-axis contraction index is the sum over the coordinate itself.

  Beside it: the stack of feature matrices is built by laying a stack of single rows (the dense
  vector) before a stack of 26-row matrices (the embeddings) along the row axis, so its row f is the
  single row for f = 0 and row f − 1 of the second piece otherwise.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibGram

open Idealize.ShloMosaic Idealize.ShloMosaic.ValueIdx

/-- The dimension numbers of a stack of matrices contracted with another stack over the last axis:
    batch axes 0 and 0, free axes 1 and 1, contracted axes 2 and 2. -/
abbrev gramDims {R m n k : Nat}
    (w : DotDims.WF ⟨3, ![R, m, k]⟩ ⟨3, ![R, n, k]⟩ ⟨3, ![R, m, n]⟩ [2] [2] [1] [1] [0] [0]) :
    DotDims ⟨3, ![R, m, k]⟩ ⟨3, ![R, n, k]⟩ ⟨3, ![R, m, n]⟩ :=
  ⟨[2], [2], [1], [1], [0], [0], w⟩

/-- The sum over the contraction index of the products of the operands' entries at output index
    (g, a, b) is the sum over the contracted coordinate c of A (g, a, c) · B (g, b, c). -/
theorem contr_sum {R m n k : Nat}
    (w : DotDims.WF ⟨3, ![R, m, k]⟩ ⟨3, ![R, n, k]⟩ ⟨3, ![R, m, n]⟩ [2] [2] [1] [1] [0] [0])
    (A : (⟨3, ![R, m, k]⟩ : Shape).Idx → EReal) (B : (⟨3, ![R, n, k]⟩ : Shape).Idx → EReal)
    (g : Fin R) (a : Fin m) (b : Fin n) :
    (∑ c : (gramDims w).contr.Idx, A ((gramDims w).lhsIdx (ix3 g a b) c) * B ((gramDims w).rhsIdx (ix3 g a b) c))
      = ∑ c : Fin k, A (ix3 g a c) * B (ix3 g b c) := by
  rw [← Equiv.sum_comp (contrEquiv1 (gramDims w) k rfl rfl).symm]
  refine Finset.sum_congr rfl fun c _ => ?_
  have c3 := contrEquiv1_symm_val (gramDims w) k rfl rfl c
  have l3 : (gramDims w).lhsIdx (ix3 g a b) ((contrEquiv1 (gramDims w) k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (gramDims w).rhsIdx (ix3 g a b) ((contrEquiv1 (gramDims w) k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The matrix unit's product of two stacks into a zero accumulator, at entry (r, f, g): the dot product
    of row f of the first and row g of the second. -/
theorem matmul_gram_apply {R : Nat} {φ₁ φ₂ : FTy}
    (w : DotDims.WF ⟨3, ![R, 27, 128]⟩ ⟨3, ![R, 27, 128]⟩ ⟨3, ![R, 27, 27]⟩ [2] [2] [1] [1] [0] [0])
    (prec : Option ContractPrecision) (A : FVec Ideal ⟨3, ![R, 27, 128]⟩ φ₁) (B : FVec Ideal ⟨3, ![R, 27, 128]⟩ φ₂)
    (r : Fin R) (f g : Fin 27) :
    FloatOps.matmul (⟨[2], [2], [1], [1], [0], [0], w⟩ : DotDims _ _ _) prec A B
        (constant ⟨3, ![R, 27, 27]⟩ .f32 0x00000000#32) (ix3 r f g)
      = ∑ k : Fin 128, A (ix3 r f k) * B (ix3 r g k) := by
  rw [Ideal.matmul_constant_zero_apply]
  exact contr_sum w A B r f g

/-- The host's general dot product of two stacks, at entry (r, f, g): the same dot product. -/
theorem dotGeneral_gram_apply {R : Nat} {φ₁ φ₂ : FTy}
    (w : DotDims.WF ⟨3, ![R, 27, 128]⟩ ⟨3, ![R, 27, 128]⟩ ⟨3, ![R, 27, 27]⟩ [2] [2] [1] [1] [0] [0])
    (prec : Option ContractPrecision) (sched : HostSchedule)
    (A : FVec Ideal ⟨3, ![R, 27, 128]⟩ φ₁) (B : FVec Ideal ⟨3, ![R, 27, 128]⟩ φ₂) (r : Fin R) (f g : Fin 27) :
    FloatOps.dotGeneral (⟨[2], [2], [1], [1], [0], [0], w⟩ : DotDims _ _ _) prec sched A B (ix3 r f g)
      = ∑ k : Fin 128, A (ix3 r f k) * B (ix3 r g k) := by
  rw [Ideal.dotGeneral_apply]
  exact contr_sum w A B r f g

/-- A stack of single rows laid before a stack of 26-row matrices along the row axis: row f of the
    result is the single row when f = 0, and row f − 1 of the second piece otherwise. -/
theorem concat_feat_apply {α : Type} {R : Nat}
    (h : Shape.Concatenates [(⟨3, ![R, 1, 128]⟩ : Shape), ⟨3, ![R, 26, 128]⟩] ⟨3, ![R, 27, 128]⟩ 1)
    (a : (⟨3, ![R, 1, 128]⟩ : Shape).Idx → α) (e : (⟨3, ![R, 26, 128]⟩ : Shape).Idx → α)
    (r : Fin R) (f : Fin 27) (d : Fin 128) :
    concatenate ⟨3, ![R, 27, 128]⟩ 1 [⟨⟨3, ![R, 1, 128]⟩, a⟩, ⟨⟨3, ![R, 26, 128]⟩, e⟩] h (ix3 r f d)
      = if hf : f.val = 0 then a (ix3 r (0 : Fin 1) d) else e (ix3 r (⟨f.val - 1, by omega⟩ : Fin 26) d) := by
  by_cases hf : f.val = 0
  · rw [dif_pos hf]
    refine concatenate_pair_apply_left 1 a e h (ix3 r f d) rfl (ix3 r (0 : Fin 1) d) ?_
    intro b
    match b with
    | ⟨0, _⟩ => rfl
    | ⟨1, _⟩ => exact hf.symm
    | ⟨2, _⟩ => rfl
  · rw [dif_neg hf]
    refine concatenate_pair_apply_right 1 a e h (ix3 r f d) rfl rfl (ix3 r (⟨f.val - 1, by omega⟩ : Fin 26) d) ?_ ?_
    · intro b hb
      match b, hb with
      | ⟨0, _⟩, _ => rfl
      | ⟨1, _⟩, hb => exact absurd rfl hb
      | ⟨2, _⟩, _ => rfl
    · show f.val - 1 + 1 = f.val
      omega

end Cert.LibGram

end
-- ==== Proof.KernelBlock.lean ====
/-
  What the kernel's body leaves in its output block, read at one entry.

  The body loads a block of 512 dense vectors x (512 × 128) and a block of 512 × 26 embedding
  vectors e (512 × 26 × 128), stacks them into 27 feature vectors per batch row (the dense vector
  first), and multiplies the stack with itself row by row: V (r, f, g) = ∑ d, feat r f d · feat r g d,
  the Gram matrix of batch row r.  From V it cuts, for each k = 0 … 25, row k from column k + 1 on
  (26 − k entries: the pairs (k, k + 1), …, (k, 26)) and lays the 26 cuts end to end: 351 entries per
  batch row.  Position p of that row lies in the cut k whose span rowStart k ≤ p < rowStart (k + 1)
  holds it, at offset p − rowStart k, so it is V (r, k, k + 1 + (p − rowStart k)) = gram r (triI p) (triJ p).
-/
import proofs.«132378_j5403068858956_1_alg».proof.Proof.Gen.KernelIdeal.Frame
import proofs.«132378_j5403068858956_1_alg».proof.Proof.Spec
import proofs.«132378_j5403068858956_1_alg».proof.Proof.LibRowSlice
import proofs.«132378_j5403068858956_1_alg».proof.Proof.LibGram

noncomputable section

open scoped BigOperators

namespace Cert.KernelIdeal.Block

open Cert.KernelIdeal Cert.KernelIdeal.Gen Cert.Spec Idealize.ShloMosaic Idealize.ShloMosaic.ValueIdx

/-! ## The stack of features -/

/-- The dense block with a unit row axis put in, laid before the embedding block along the row axis,
    is the stack of features: row 0 is the dense vector, row f > 0 is embedding f − 1.  (Putting in a
    unit axis keeps the row-major position: (r · 1 + 0) · 128 + d = r · 128 + d.) -/
theorem featStack_apply (x0 : Vec Ideal S512x128 .f32) (x1 : Vec Ideal S512x26x128 .f32)
    (hc : S512x128.ShapeCasts S512x1x128)
    (h : Shape.Concatenates [S512x1x128, S512x26x128] S512x27x128 1)
    (r : Fin 512) (f : Fin 27) (d : Fin 128) :
    concatenate S512x27x128 1 [⟨S512x1x128, shapeCast S512x1x128 x0 hc⟩, ⟨S512x26x128, x1⟩] h (ix3 r f d)
      = feat (R := 512) x0 x1 r f d := by
  refine (Cert.LibGram.concat_feat_apply (R := 512) h _ _ r f d).trans ?_
  unfold feat
  by_cases hf : f.val = 0
  · rw [dif_pos hf, dif_pos hf]
    refine shapeCast_apply x0 hc _ (ix2 r d) ?_
    rw [Shape.rowMajor_val_two, Shape.rowMajor_val_three]
    show r.val * 128 + d.val = (r.val * 1 + 0) * 128 + d.val
    rw [Nat.mul_one, Nat.add_zero]
  · rw [dif_neg hf, dif_neg hf]

/-! ## The product: the Gram matrix of each batch row -/

/-- The batched product of the feature stack with itself, into zero, at (r, f, g), is the Gram entry
    (f, g) of batch row r.  (The change of format before the product is the identity on extended reals.) -/
theorem pay2_apply (x0 : Vec Ideal S512x128 .f32) (x1 : Vec Ideal S512x26x128 .f32)
    (r : Fin 512) (f g : Fin 27) :
    k0_pay2 (F := Ideal) x0 x1 (ix3 r f g) = gram (R := 512) x0 x1 r f g := by
  unfold k0_pay2 gram
  simp only [matmul]
  unfold dot_S512x27x128_S512x27x128_S512x27x27_2_2_1_1_0_0
  refine (Cert.LibGram.matmul_gram_apply (R := 512) _ none _ _ r f g).trans ?_
  refine Finset.sum_congr rfl fun d _ => ?_
  exact congrArg₂ (· * ·) (featStack_apply x0 x1 _ _ r f d) (featStack_apply x0 x1 _ _ r g d)

/-! ## One cut of the product -/

/-- Row k of the product from column o on, with the unit row axis forgotten, at (r, q), is the Gram
    entry (f, g) of batch row r for f = k and g = o + q. -/
theorem rowPiece_apply {n : Nat} (k o : Nat) (x0 : Vec Ideal S512x128 .f32) (x1 : Vec Ideal S512x26x128 .f32)
    (hs : S512x27x27.Slices ![0, k, o] ⟨3, ![512, 1, n]⟩)
    (hc : (⟨3, ![512, 1, n]⟩ : Shape).ShapeCasts ⟨2, ![512, n]⟩)
    (r : Fin 512) (q : Fin n) (f g : Fin 27) (hf : f.val = k) (hg : g.val = o + q.val) :
    shapeCast ⟨2, ![512, n]⟩ (extractStridedSlice ⟨3, ![512, 1, n]⟩ ![0, k, o] (k0_pay2 (F := Ideal) x0 x1) hs) hc (ix2 r q)
      = gram (R := 512) x0 x1 r f g :=
  (Cert.LibRowSlice.rowSlice_apply k o (k0_pay2 (F := Ideal) x0 x1) hs hc r q f g hf hg).trans (pay2_apply x0 x1 r f g)

/-! ## The 26 cuts laid end to end -/

/-- The shapes of the 26 cuts, in the order they are laid: 512 × (26 − k) for k = 0 … 25. -/
abbrev cutShapes : List Shape :=
  [S512x26, S512x25, S512x24, S512x23, S512x22, S512x21, S512x20, S512x19, S512x18, S512x17, S512x16, S512x15, S512x14,
    S512x13, S512x12, S512x11, S512x10, S512x9, S512x8, S512x7, S512x6, S512x5, S512x4, S512x3, S512x2, S512x1]

/-- The cuts before cut k hold 26 + 25 + … + (27 − k) = rowStart k entries per batch row in all. -/
theorem cuts_before : ∀ k < 27,
    ((cutShapes.take k).map fun s : Shape =>
      if h : s.rank = S512x351.rank then s.size ((1 : Fin S512x351.rank).cast h.symm) else 0).sum = rowStart k := by
  decide

/-- Position p in row k of the triangle, with the row's span evaluated: rowStart k = N ≤ p < M = rowStart (k + 1),
    and the column of p is k + 1 plus the offset p − N of p in its row. -/
theorem tri_locate (p : Fin 351) (k N M : Nat) (hk : (triI p).val = k) (e1 : rowStart k = N) (e2 : rowStart (k + 1) = M) :
    N ≤ p.val ∧ p.val < M ∧ (triJ p).val = k + 1 + (p.val - N) := by
  obtain ⟨hlo, hhi, _, hJ⟩ := tri_span p
  rw [hk] at hlo hhi hJ
  rw [e1] at hlo hJ
  rw [e2] at hhi
  exact ⟨hlo, hhi, hJ⟩

/- One case of the split on the row k of position p (k, the row's first position N, the next row's first
   position M and the row's length W = 26 − k as literals): p lies in piece k of the concatenation, the
   pieces before it have N entries in all, so p reads piece k at offset p − N; the batch coordinate is
   kept; and piece k at (r, p − N) is the Gram entry (k, k + 1 + (p − N)). -/
set_option hygiene false in
local macro "tri_case" K:num N:num M:num W:num : tactic => `(tactic| (
  obtain ⟨hlo, hhi, hJ⟩ := tri_locate p $K $N $M hk (by decide) (by decide)
  refine (concatenate_apply_piece 1 _ _ (ix2 r p) $K (by show $K < 26; omega) _ _ (by rfl) (by rfl) $N
    (by rw [List.map_take]; exact (cuts_before $K (by omega)).trans (by decide))
    (ix2 r (⟨p.val - $N, by omega⟩ : Fin $W)) ?_ ?_).trans ?_
  · intro b hb
    match b, hb with
    | ⟨0, _⟩, _ => rfl
    | ⟨1, _⟩, hb => exact absurd rfl hb
  · show $N + (p.val - $N) = p.val
    omega
  · exact rowPiece_apply $K ($K + 1) x0 x1 _ _ r _ (triI p) (triJ p) hk hJ))

/-- The concatenation of the 26 cuts, at (r, p), is the Gram entry of the pair at position p. -/
theorem pay1_apply (x0 : Vec Ideal S512x128 .f32) (x1 : Vec Ideal S512x26x128 .f32) (r : Fin 512) (p : Fin 351) :
    k0_pay1 (F := Ideal) (k0_pay2 x0 x1) (k0_pay3 x0 x1) (k0_pay4 x0 x1) (k0_pay5 x0 x1) (k0_pay6 x0 x1) (k0_pay7 x0 x1)
        (k0_pay8 x0 x1) (k0_pay9 x0 x1) (k0_pay10 x0 x1) (k0_pay11 x0 x1) (k0_pay12 x0 x1) (k0_pay13 x0 x1)
        (k0_pay14 x0 x1) (k0_pay15 x0 x1) (k0_pay16 x0 x1) (k0_pay17 x0 x1) (k0_pay18 x0 x1) (k0_pay19 x0 x1)
        (k0_pay20 x0 x1) (k0_pay21 x0 x1) (k0_pay22 x0 x1) (k0_pay23 x0 x1) (k0_pay24 x0 x1) (k0_pay25 x0 x1) (ix2 r p)
      = gram (R := 512) x0 x1 r (triI p) (triJ p) := by
  have hI : (triI p).val < 26 := (tri_span p).2.2.1
  unfold k0_pay1
  interval_cases hk : (triI p).val
  · tri_case 0 0 26 26
  · tri_case 1 26 51 25
  · tri_case 2 51 75 24
  · tri_case 3 75 98 23
  · tri_case 4 98 120 22
  · tri_case 5 120 141 21
  · tri_case 6 141 161 20
  · tri_case 7 161 180 19
  · tri_case 8 180 198 18
  · tri_case 9 198 215 17
  · tri_case 10 215 231 16
  · tri_case 11 231 246 15
  · tri_case 12 246 260 14
  · tri_case 13 260 273 13
  · tri_case 14 273 285 12
  · tri_case 15 285 296 11
  · tri_case 16 296 306 10
  · tri_case 17 306 315 9
  · tri_case 18 315 323 8
  · tri_case 19 323 330 7
  · tri_case 20 330 336 6
  · tri_case 21 336 341 5
  · tri_case 22 341 345 4
  · tri_case 23 345 348 3
  · tri_case 24 348 350 2
  · tri_case 25 350 351 1

/-! ## The block the body leaves -/

/-- The offsets (0, 0) are zero on each of two axes, -/
theorem hz2 : (![0, 0] : Fin 2 → Nat) = fun _ => 0 :=
  funext fun a => match a with | ⟨0, _⟩ => rfl | ⟨1, _⟩ => rfl
/-- and (0, 0, 0) on each of three. -/
theorem hz3 : (![0, 0, 0] : Fin 3 → Nat) = fun _ => 0 :=
  funext fun a => match a with | ⟨0, _⟩ => rfl | ⟨1, _⟩ => rfl | ⟨2, _⟩ => rfl

/-- The body loads its two blocks whole and stores its result whole, so the output block is the stored
    value of the loaded blocks themselves; at (r, p) that is the Gram entry of the pair at position p. -/
theorem out_block_apply (x0 : Vec Ideal S512x128 .f32) (x1 : Vec Ideal S512x26x128 .f32) (r : Fin 512) (p : Fin 351) :
    Gen.out0_2 (F := Ideal) x0 x1 (ix2 r p) = Cert.Spec.gram (R := 512) x0 x1 r (Cert.Spec.triI p) (Cert.Spec.triJ p) := by
  unfold Gen.out0_2
  rw [View.canon_unit_zero hz2]
  simp only [View.ld_unit_zero (S := S512x128) hz2, View.ld_unit_zero (S := S512x26x128) hz3]
  exact pay1_apply x0 x1 r p

end Cert.KernelIdeal.Block

end
-- ==== Proof.KernelArray.lean ====
/-
  From the blocks to the array.

  The grid has 32 points; point t stages rows 512 t … 512 t + 511 of both arguments and writes back
  rows 512 t … 512 t + 511 of the result, all 351 columns.  The body's result at row r of its block is
  the Gram entry of block row r, and block row r of point t is array row 512 t + r: so what point t
  writes back is block t of the one function G of the two argument arrays.  The 32 blocks tile the
  result, hence the result array after the run is G.
-/
import proofs.«132378_j5403068858956_1_alg».proof.Proof.Gen.KernelIdeal.Frame
import proofs.«132378_j5403068858956_1_alg».proof.Proof.Gen.KernelIdeal.Value
import proofs.«132378_j5403068858956_1_alg».proof.Proof.Spec
import proofs.«132378_j5403068858956_1_alg».proof.Proof.KernelBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Value Cert.Spec

variable (m : (ℓ : Loc nD τ sig) → Buf (Elt Ideal) ℓ) (ρ : Dev nD → PrngReg)

/-- The dense argument as the region finds it. -/
abbrev dense (c : Dev nD) : (⟨2, ![16384, 128]⟩ : Shape).Idx → EReal := V m c main_arg0
/-- The embeddings argument as the region finds it. -/
abbrev emb (c : Dev nD) : (⟨3, ![16384, 26, 128]⟩ : Shape).Idx → EReal := V m c main_arg1

/-- The printed index maps, decided over the 32 points: every window's block index at point t is t along
    the batch axis and 0 along the others. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row r of the dense block at point t is row 512 t + r of the dense argument. -/
theorem dense_blk (c : Dev nD) (t : Fin cfg0.N) (r : Fin 512) (d : Fin 128) (R : Fin 16384) (hR : R.val = 512 * t.val + r.val) :
    (iblk m c 0 t : Vec Ideal S512x128 .f32) (ix2 r d) = dense m c (ix2 R d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * r.val = R.val; rw [e0, hR]; omega
  | ⟨1, _⟩ => show win0_0.index t (1 : Fin 2) * 128 + 1 * d.val = d.val; rw [e1]; omega

/-- Row r of the embeddings block at point t is row 512 t + r of the embeddings argument. -/
theorem emb_blk (c : Dev nD) (t : Fin cfg0.N) (r : Fin 512) (f : Fin 26) (d : Fin 128) (R : Fin 16384)
    (hR : R.val = 512 * t.val + r.val) :
    (iblk m c 1 t : Vec Ideal S512x26x128 .f32) (ix3 r f d) = emb m c (ix3 R f d) := by
  obtain ⟨-, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 512 + 1 * r.val = R.val; rw [e0, hR]; omega
  | ⟨1, _⟩ => show win0_1.index t (1 : Fin 3) * 26 + 1 * f.val = f.val; rw [e1]; omega
  | ⟨2, _⟩ => show win0_1.index t (2 : Fin 3) * 128 + 1 * d.val = d.val; rw [e2]; omega

/-- Position (r, p) of the result block at point t is position (512 t + r, p) of the result array. -/
theorem out_emb (t : Fin cfg0.N) (r : Fin 512) (p : Fin 351) (R : Fin 16384) (hR : R.val = 512 * t.val + r.val) :
    ((cfg0.win 2).blk t).view.emb (ix2 r p) = (ix2 R p : (⟨2, ![16384, 351]⟩ : Shape).Idx) := by
  obtain ⟨-, -, -, -, -, e0, e1⟩ := idx_facts t
  funext a
  apply Fin.ext
  match a with
  | ⟨0, _⟩ => show win0_2.index t (0 : Fin 2) * 512 + 1 * r.val = R.val; rw [e0, hR]; omega
  | ⟨1, _⟩ => show win0_2.index t (1 : Fin 2) * 351 + 1 * p.val = p.val; rw [e1]; omega

/-- The Gram entries of block row r at point t are those of array row 512 t + r. -/
theorem gram_blk (c : Dev nD) (t : Fin cfg0.N) (r : Fin 512) (R : Fin 16384) (hR : R.val = 512 * t.val + r.val) (f g : Fin 27) :
    gram (R := 512) (iblk m c 0 t : Vec Ideal S512x128 .f32) (iblk m c 1 t : Vec Ideal S512x26x128 .f32) r f g
      = gram (R := 16384) (dense m c) (emb m c) R f g := by
  have hfeat : ∀ (h : Fin 27) (d : Fin 128),
      feat (R := 512) (iblk m c 0 t : Vec Ideal S512x128 .f32) (iblk m c 1 t : Vec Ideal S512x26x128 .f32) r h d
        = feat (R := 16384) (dense m c) (emb m c) R h d := by
    intro h d
    unfold feat
    by_cases hh : h.val = 0
    · rw [dif_pos hh, dif_pos hh]; exact dense_blk m c t r d R hR
    · rw [dif_neg hh, dif_neg hh]; exact emb_blk m c t r _ d R hR
  unfold gram
  exact Finset.sum_congr rfl fun d _ => by rw [hfeat f d, hfeat g d]

/-- What point t writes back is block t of G of the two arguments. -/
theorem flushed_eq (c : Dev nD) (t : Fin cfg0.N) :
    (dats m 0 c).flushed 2 t = ((cfg0.win 2).blk t).view.read (Elt Ideal) (G (dense m c) (emb m c)) := by
  rw [flushed2]
  funext j
  obtain ⟨r, p, rfl⟩ : ∃ (r : Fin 512) (p : Fin 351), j = ix2 r p := ⟨j 0, j 1, eq_ix2 j⟩
  have ht : t.val < 32 := Nat.lt_of_lt_of_eq t.isLt (show cfg0.N = 32 from N_0)
  have hR : 512 * t.val + r.val < 16384 := by have := r.isLt; omega
  show out0_2 (iblk m c 0 t) (iblk m c 1 t) (ix2 r p) = G (dense m c) (emb m c) (((cfg0.win 2).blk t).view.emb (ix2 r p))
  rw [out_emb t r p ⟨512 * t.val + r.val, hR⟩ rfl]
  refine (Cert.KernelIdeal.Block.out_block_apply (iblk m c 0 t) (iblk m c 1 t) r p).trans ?_
  exact gram_blk m c t r ⟨512 * t.val + r.val, hR⟩ rfl (triI p) (triJ p)

/-- Every position of the result lies in the block of the point its row falls to. -/
theorem cover (i : S16384x351.Idx) :
    ∃ t : Fin cfg0.N, (cfg0.win 2).flush t = true ∧ i ∈ ((cfg0.win 2).blk t).view.set := by
  have h0 : (i 0).val < 16384 := (i 0).isLt
  have h1 : (i 1).val < 351 := (i 1).isLt
  have hN : cfg0.N = 32 := N_0
  let t : Fin cfg0.N := ⟨(i 0).val / 512, by rw [hN]; omega⟩
  have htv : t.val = (i 0).val / 512 := rfl
  obtain ⟨-, -, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e0, htv]; omega
  | ⟨1, _⟩ =>
    show win0_2.index t (1 : Fin 2) * 351 ≤ (i 1).val ∧ (i 1).val < win0_2.index t (1 : Fin 2) * 351 + 351
    rw [e1]; omega

/-- The result array after the run is G of the two arguments as launched. -/
theorem final (c : Dev nD) :
    (dats m 0 c).arrAt 2 cfg0.N = G (m ((c : Thread nD τ).loc main_arg0)) (m ((c : Thread nD τ).loc main_arg1)) :=
  (dats m 0 c).arrAt_eq_of_cover 2 (G (dense m c) (emb m c)) (fun t _ => flushed_eq m c t) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelIdeal.Arr

end
-- ==== Proof.RefTerm.lean ====
/-
  The reference's result as one term of its two argument arrays: the 27 features of every batch row
  laid side by side, their Gram matrices by one batched contraction over the 128 coordinates, and the
  351 entries (row, column) of every Gram matrix picked by a table of index pairs.  The table's two
  columns are the constant lists of rows and of columns, each passed through the wrap-around of a
  negative index (add 27 where the index is negative — nowhere, the mask being constantly false).
-/
import proofs.«132378_j5403068858956_1_alg».proof.ReferenceIdeal

noncomputable section

namespace Cert.ReferenceIdeal.RefTerm

open Idealize.ShloMosaic Cert.ReferenceIdeal

variable {F : FTy → Type} [FloatOps F] [Facts]
open Facts₀ Facts

/-- The rows of the 351 pairs, after the wrap-around of negative indices. -/
def rowIdx : (⟨S351, .i32⟩ : BufTy).Contents (Elt F) :=
  select (constantI S351 1 0#1)
    (addi (fun i => lit0 (S351.rowMajor i)) (broadcastInDim S351 ![] bcast_S_S351 (constantI S_ 32 27#32)))
    (fun i => lit0 (S351.rowMajor i))

/-- The columns of the 351 pairs, after the wrap-around of negative indices. -/
def colIdx : (⟨S351, .i32⟩ : BufTy).Contents (Elt F) :=
  select (constantI S351 1 0#1)
    (addi (fun i => lit1 (S351.rowMajor i)) (broadcastInDim S351 ![] bcast_S_S351 (constantI S_ 32 27#32)))
    (fun i => lit1 (S351.rowMajor i))

/-- The table of index pairs: position p holds (row p, column p). -/
def pairIdx : (⟨S351x2, .i32⟩ : BufTy).Contents (Elt F) :=
  concatenate S351x2 1
    [⟨S351x1, broadcastInDim S351x1 ![0] bcast_S351_S351x1_0 (rowIdx (F := F))⟩,
     ⟨S351x1, broadcastInDim S351x1 ![0] bcast_S351_S351x1_0 (colIdx (F := F))⟩]
    concatenates_S351x1_S351x1_S351x2_d1

/-- The 27 features of every batch row: the dense vector first, then the 26 embeddings. -/
def feats (a0 : (⟨S16384x128, .f32⟩ : BufTy).Contents (Elt F)) (a1 : (⟨S16384x26x128, .f32⟩ : BufTy).Contents (Elt F)) :
    (⟨S16384x27x128, .f32⟩ : BufTy).Contents (Elt F) :=
  concatenate S16384x27x128 1
    [⟨S16384x1x128, broadcastInDim S16384x1x128 ![0, 2] bcast_S16384x128_S16384x1x128_0_2 a0⟩, ⟨S16384x26x128, a1⟩]
    concatenates_S16384x1x128_S16384x26x128_S16384x27x128_d1

/-- The Gram matrix of every batch row. -/
def gramArr (a0 : (⟨S16384x128, .f32⟩ : BufTy).Contents (Elt F)) (a1 : (⟨S16384x26x128, .f32⟩ : BufTy).Contents (Elt F)) :
    (⟨S16384x27x27, .f32⟩ : BufTy).Contents (Elt F) :=
  Host.dotGeneral dot_S16384x27x128_S16384x27x128_S16384x27x27_2_2_1_1_0_0 none (feats a0 a1) (feats a0 a1)

/-- The reference's result: the Gram matrices read at the table's pairs. -/
def refTerm (a0 : (⟨S16384x128, .f32⟩ : BufTy).Contents (Elt F)) (a1 : (⟨S16384x26x128, .f32⟩ : BufTy).Contents (Elt F)) :
    (⟨S16384x351, .f32⟩ : BufTy).Contents (Elt F) :=
  Host.gather gather_S16384x27x27_S351x2_S16384x351_0_12_n_n_12_1_1638411 (gramArr a0 a1) (pairIdx (F := F))

end Cert.ReferenceIdeal.RefTerm

end
-- ==== Proof.RefRun.lean ====
/-
  The reference program's run, read back.  Its entry function is a straight line of nineteen tensor
  operations and nothing else: four constant tables (two lists of 351 indices, two constantly-false
  masks), the dense vector laid in front of the 26 embeddings, the batched contraction of the 27
  features against themselves, the wrap-around of negative indices on either list (add 27 under the
  mask, keep the list otherwise), the two lists set side by side as a table of pairs, and the read of
  the contraction at the table's pairs.  Listed in order, the operations ARE the entry function; from
  any memory with all counters at zero every weakly fair execution ends, the result buffer holds the
  operations' composition applied to the two argument arrays as they were at launch, and the two
  argument arrays are untouched (no operation writes them).
-/
import proofs.«132378_j5403068858956_1_alg».proof.Proof.Gen.ReferenceIdeal
import proofs.«132378_j5403068858956_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's nineteen operations, in program order; each names the buffers it reads, the
    buffer it writes, and the pure function from the former's contents to the latter's. -/
abbrev ops : List (HloOp τ sig (Elt F)) :=
  [ nullary main_c (fun i => lit0 (S351.rowMajor i)),
    nullary main_c_0 (constantI S351 1 0#1),
    nullary main_c_1 (fun i => lit1 (S351.rowMajor i)),
    nullary main_c_2 (constantI S351 1 0#1),
    unary main_arg0 main_v0 (broadcastInDim S16384x1x128 ![0, 2] bcast_S16384x128_S16384x1x128_0_2 : (⟨S16384x128, .f32⟩ : BufTy).Contents (Elt F) → (⟨S16384x1x128, .f32⟩ : BufTy).Contents (Elt F)),
    binary main_v0 main_arg1 main_v1 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    binary main_v1 main_v1 main_v2 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)),
    nullary main_c_3 (constantI S_ 32 27#32),
    unary main_c_3 main_v3 (broadcastInDim S351 ![] bcast_S_S351 : (⟨S_, .i32⟩ : BufTy).Contents (Elt F) → (⟨S351, .i32⟩ : BufTy).Contents (Elt F)),
    binary main_c main_v3 main_v4 (addi : (⟨S351, .i32⟩ : BufTy).Contents (Elt F) → (⟨S351, .i32⟩ : BufTy).Contents (Elt F) → (⟨S351, .i32⟩ : BufTy).Contents (Elt F)),
    ternary main_c_0 main_v4 main_c main_v5 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_4 (constantI S_ 32 27#32),
    unary main_c_4 main_v6 (broadcastInDim S351 ![] bcast_S_S351 : (⟨S_, .i32⟩ : BufTy).Contents (Elt F) → (⟨S351, .i32⟩ : BufTy).Contents (Elt F)),
    binary main_c_1 main_v6 main_v7 (addi : (⟨S351, .i32⟩ : BufTy).Contents (Elt F) → (⟨S351, .i32⟩ : BufTy).Contents (Elt F) → (⟨S351, .i32⟩ : BufTy).Contents (Elt F)),
    ternary main_c_2 main_v7 main_c_1 main_v8 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v5 main_v9 (broadcastInDim S351x1 ![0] bcast_S351_S351x1_0 : (⟨S351, .i32⟩ : BufTy).Contents (Elt F) → (⟨S351x1, .i32⟩ : BufTy).Contents (Elt F)),
    unary main_v8 main_v10 (broadcastInDim S351x1 ![0] bcast_S351_S351x1_0 : (⟨S351, .i32⟩ : BufTy).Contents (Elt F) → (⟨S351x1, .i32⟩ : BufTy).Contents (Elt F)),
    binary main_v9 main_v10 main_v11 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v2 main_v11 main_v12 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)) ]

/-- The entry function is the straight line of those operations (on every device alike). -/
theorem main_eq (c : Dev nD) : main (F := F) c = seq ops := rfl

/-- No buffer of the signature is scoped to a region. -/
theorem scopedRefs_eq : (Finset.univ.filter fun b : Ref sig .tc => b.isScoped) = ∅ := by decide

/-- No semaphore of the signature is scoped to a region (there is none at all). -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-- On every device, for any float values, from any memory with zero counters: every weakly fair
    execution of the entry function terminates with the result buffer at the composed term of the two
    argument arrays' launch contents, and both argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = Cert.ReferenceIdeal.RefTerm.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.LibPairGather.lean ====
/-
  ONE ENTRY OF EVERY MATRIX OF A STACK, read at one element.

  A stack x of B matrices, each M × N, and a table idx of n (row, column) pairs.  The gather with one offset
  axis (the stack axis, taken whole), both matrix axes collapsed and start-indexed, and the index vector along
  the table's second axis produces the B × n array whose entry (b, p) is matrix b at the p-th pair:

      result (b, p) = x (b, clamp (idx (p, 0)), clamp (idx (p, 1))),

  each component of the pair read as a signed integer and clamped into the axis, [0, M − 1] for the row and
  [0, N − 1] for the column.  This is what picking a fixed list of positions out of every matrix of a batch
  (for instance the strict upper triangle of every Gram matrix) amounts to.
-/
import Idealize.ShloMosaic.PureOps.Ideal
import Idealize.ShloMosaic.Lib.ValueIdx

noncomputable section

namespace Cert.LibPairGather

open Idealize.ShloMosaic Idealize.ShloMosaic.ValueIdx

/-- THE PAIR GATHER AT (b, p).  Operand `x : [B, M, N]`, start indices `idx : [n, 2]` with the index vector on
    axis 1 (so `idx (p, 0)` is a row and `idx (p, 1)` a column), result `[B, n]`; result axis 0 is the one offset
    axis, operand axes 1 and 2 are collapsed and are the axes the start index names, there are no batching axes
    (`hoff` … `hivd`: the dimension numbers, each an equation between literals at a given record).  Then the
    result at `(b, p)` is `x` at stack position `b`, row `idx (p, 0)` and column `idx (p, 1)`, both read SIGNED and
    CLAMPED into the matrix: a negative component reads position 0, one past the end reads the last position.
    The slice is the whole stack axis by one row by one column; that the two collapsed axes have slice size 1
    is part of the dimension numbers' own conditions, so nothing is assumed about the slice sizes. -/
theorem gather_pair_apply {α : Type} {B M N n w : Nat}
    (d : GatherDims ⟨3, ![B, M, N]⟩ ⟨2, ![n, 2]⟩ ⟨2, ![B, n]⟩)
    (hoff : d.offsetDims = [0]) (hcoll : d.collapsedSliceDims = [1, 2]) (hob : d.operandBatchingDims = [])
    (hsim : d.startIndexMap = [1, 2]) (hivd : d.indexVectorDim = 1)
    (x : (⟨3, ![B, M, N]⟩ : Shape).Idx → α) (idx : IVec ⟨2, ![n, 2]⟩ w) (b : Fin B) (p : Fin n) (hM : 0 < M) (hN : 0 < N) :
    Host.gather d x idx (ix2 b p)
      = x (ix3 b (⟨min (idx (ix2 p (0 : Fin 2))).toInt.toNat (M - 1), by omega⟩ : Fin M)
                 (⟨min (idx (ix2 p (1 : Fin 2))).toInt.toNat (N - 1), by omega⟩ : Fin N)) := by
  -- a collapsed axis contributes a slice of one position
  have hs1 : d.sliceSizes 1 = 1 := d.slice_collapsed 1 (by rw [hcoll]; exact List.mem_cons_self)
  have hs2 : d.sliceSizes 2 = 1 := d.slice_collapsed 2 (by rw [hcoll]; exact List.mem_cons_of_mem _ List.mem_cons_self)
  -- put the five lists in place of the record's fields: from here on they are literals
  obtain ⟨od, cd, ob, sb, sm, iv, ss, wf⟩ := d
  simp only at hoff hcoll hob hsim hivd hs1 hs2
  subst hoff hcoll hob hsim hivd
  -- the result element is the operand at one index; compare the two indices axis by axis
  unfold Host.gather
  congr 1
  funext a
  refine Fin.ext ?_
  -- which operand axes the start index names (and, here, which are collapsed): 1 and 2, not 0
  have m0 : (0 : Fin 3) ∉ ([1, 2] : List (Fin 3)) := by decide
  have m1 : (1 : Fin 3) ∈ ([1, 2] : List (Fin 3)) := by decide
  have m2 : (2 : Fin 3) ∈ ([1, 2] : List (Fin 3)) := by decide
  -- on every axis the coordinate is  start + batching coordinate + offset coordinate,  and nothing is batching
  match a with
  | ⟨0, _⟩ =>
    -- the stack axis: not start-indexed (start 0), the one kept axis, so it carries the result's offset coordinate b
    show GatherDims.start _ (ix2 b p) idx 0 + GatherDims.batchCoord _ (ix2 b p) 0 + GatherDims.offCoord _ (ix2 b p) 0 = b.val
    rw [GatherDims.batchCoord_eq_zero _ _ _ List.not_mem_nil]
    unfold GatherDims.start
    rw [dif_neg m0]
    unfold GatherDims.offCoord
    rw [dif_pos ((GatherDims.mem_sKept _ _).2 ⟨m0, List.not_mem_nil⟩), Nat.add_zero, Nat.zero_add]
    rfl
  | ⟨1, _⟩ =>
    -- the row axis: collapsed (offset 0); its start is component 0 of the p-th start index, clamped into [0, M − 1]
    show GatherDims.start _ (ix2 b p) idx 1 + GatherDims.batchCoord _ (ix2 b p) 1 + GatherDims.offCoord _ (ix2 b p) 1 = min _ (M - 1)
    rw [GatherDims.batchCoord_eq_zero _ _ _ List.not_mem_nil,
      GatherDims.offCoord_eq_zero _ _ _ (fun h => ((GatherDims.mem_sKept _ _).1 h).1 m1)]
    unfold GatherDims.start
    rw [dif_pos m1, Nat.add_zero]
    show min _ (M - ss 1) = _
    rw [hs1]
    -- the start index is read at (p, 0): p is the result's one batch coordinate, 0 the position of axis 1 in [1, 2]
    congr 3
    congr 1
    funext c
    refine Fin.ext ?_
    match c with
    | ⟨0, _⟩ => rfl
    | ⟨1, _⟩ => rfl
  | ⟨2, _⟩ =>
    -- the column axis: the same with component 1 of the start index, clamped into [0, N − 1]
    show GatherDims.start _ (ix2 b p) idx 2 + GatherDims.batchCoord _ (ix2 b p) 2 + GatherDims.offCoord _ (ix2 b p) 2 = min _ (N - 1)
    rw [GatherDims.batchCoord_eq_zero _ _ _ List.not_mem_nil,
      GatherDims.offCoord_eq_zero _ _ _ (fun h => ((GatherDims.mem_sKept _ _).1 h).1 m2)]
    unfold GatherDims.start
    rw [dif_pos m2, Nat.add_zero]
    show min _ (N - ss 2) = _
    rw [hs2]
    -- read at (p, 1): 1 is the position of axis 2 in [1, 2]
    congr 3
    congr 1
    funext c
    refine Fin.ext ?_
    match c with
    | ⟨0, _⟩ => rfl
    | ⟨1, _⟩ => rfl

end Cert.LibPairGather

end
-- ==== Proof.RefValue.lean ====
/-
  The reference's result, read at one element, is the Gram entry of the position's pair.

  The table of index pairs holds, at position p, the p-th pair (i, j) with i < j in row-major order;
  none of its entries is negative, so the wrap-around leaves them as they are, and all are below 27, so
  the clamp of the lookup does nothing.  The lookup therefore reads entry (triI p, triJ p) of the Gram
  matrix of batch row b, and that entry is the dot product of the two feature rows.
-/
import proofs.«132378_j5403068858956_1_alg».proof.Proof.Gen.ReferenceIdeal
import proofs.«132378_j5403068858956_1_alg».proof.Proof.RefTerm
import proofs.«132378_j5403068858956_1_alg».proof.Proof.Spec
import proofs.«132378_j5403068858956_1_alg».proof.Proof.LibGram
import proofs.«132378_j5403068858956_1_alg».proof.Proof.LibPairGather
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.RefTerm Cert.Spec

/-- The two constant lists hold the rows and the columns of the pairs, as non-negative numbers below
    27: read signed and clamped to 0 … 26 they are the row and the column of position p. Checked
    position by position. -/
theorem table_eq : ∀ p : Fin 351, min (lit0 p).toInt.toNat (27 - 1) = (triI p).val
    ∧ min (lit1 p).toInt.toNat (27 - 1) = (triJ p).val := by
  decide +kernel

/-- The list of rows at position p: the wrap-around mask is false everywhere, so it is the constant. -/
theorem rowIdx_apply (p : Fin 351) : rowIdx (F := Ideal) (ix1 p) = lit0 p := by
  unfold rowIdx
  rw [select_apply, constantI_apply, select_zero]
  exact congrArg lit0 (Fin.ext (Shape.rowMajor_val_one _))

/-- The list of columns at position p, likewise. -/
theorem colIdx_apply (p : Fin 351) : colIdx (F := Ideal) (ix1 p) = lit1 p := by
  unfold colIdx
  rw [select_apply, constantI_apply, select_zero]
  exact congrArg lit1 (Fin.ext (Shape.rowMajor_val_one _))

/-- A list laid out as a one-column table, read at row p. -/
theorem column_apply (v : (⟨S351, .i32⟩ : BufTy).Contents (Elt Ideal)) (p : Fin 351) :
    broadcastInDim S351x1 ![0] bcast_S351_S351x1_0 v (ix2 p (0 : Fin 1)) = v (ix1 p) := by
  refine broadcastInDim_apply _ _ _ _ (ix1 p) fun a => ?_
  match a with
  | ⟨0, _⟩ => rfl

/-- The table's first entry at position p is the row of the pair. -/
theorem pairIdx_row (p : Fin 351) : pairIdx (F := Ideal) (ix2 p (0 : Fin 2)) = lit0 p := by
  unfold pairIdx
  refine (concatenate_pair_apply_left (t := S351x2) (s₁ := S351x1) (s₂ := S351x1) 1 _ _ _ (ix2 p (0 : Fin 2)) rfl (ix2 p (0 : Fin 1)) fun b => ?_).trans ?_
  · match b with
    | ⟨0, _⟩ => rfl
    | ⟨1, _⟩ => rfl
  · rw [column_apply, rowIdx_apply]

/-- The table's second entry at position p is the column of the pair. -/
theorem pairIdx_col (p : Fin 351) : pairIdx (F := Ideal) (ix2 p (1 : Fin 2)) = lit1 p := by
  unfold pairIdx
  refine (concatenate_pair_apply_right (t := S351x2) (s₁ := S351x1) (s₂ := S351x1) 1 _ _ _ (ix2 p (1 : Fin 2)) rfl rfl (ix2 p (0 : Fin 1)) (fun b hb => ?_) ?_).trans ?_
  · match b, hb with
    | ⟨0, _⟩, _ => rfl
    | ⟨1, _⟩, hb => exact absurd rfl hb
  · rfl
  · rw [column_apply, colIdx_apply]

/-- Feature f of batch row b of the stack the reference builds. -/
theorem feats_apply (a0 : (⟨S16384x128, .f32⟩ : BufTy).Contents (Elt Ideal)) (a1 : (⟨S16384x26x128, .f32⟩ : BufTy).Contents (Elt Ideal))
    (b : Fin 16384) (f : Fin 27) (d : Fin 128) :
    feats a0 a1 (ix3 b f d) = feat (R := 16384) a0 a1 b f d := by
  unfold feats feat
  rw [Cert.LibGram.concat_feat_apply]
  by_cases hf : f.val = 0
  · rw [dif_pos hf, dif_pos hf]
    refine broadcastInDim_apply _ _ _ _ (ix2 b d) fun a => ?_
    match a with
    | ⟨0, _⟩ => rfl
    | ⟨1, _⟩ => rfl
  · rw [dif_neg hf, dif_neg hf]

/-- Entry (f, g) of the Gram matrix of batch row b the reference computes. -/
theorem gramArr_apply (a0 : (⟨S16384x128, .f32⟩ : BufTy).Contents (Elt Ideal)) (a1 : (⟨S16384x26x128, .f32⟩ : BufTy).Contents (Elt Ideal))
    (b : Fin 16384) (f g : Fin 27) :
    gramArr a0 a1 (ix3 b f g) = gram (R := 16384) a0 a1 b f g := by
  unfold gramArr gram
  refine (Cert.LibGram.dotGeneral_gram_apply _ none .single (feats a0 a1) (feats a0 a1) b f g).trans ?_
  exact Finset.sum_congr rfl fun d _ => by rw [feats_apply, feats_apply]

/-- The reference's result at (b, p) is the Gram entry of the pair at position p. -/
theorem refTerm_apply (a0 : (⟨S16384x128, .f32⟩ : BufTy).Contents (Elt Ideal)) (a1 : (⟨S16384x26x128, .f32⟩ : BufTy).Contents (Elt Ideal))
    (b : Fin 16384) (p : Fin 351) :
    refTerm a0 a1 (ix2 b p) = gram (R := 16384) a0 a1 b (triI p) (triJ p) := by
  unfold refTerm
  refine (Cert.LibPairGather.gather_pair_apply gather_S16384x27x27_S351x2_S16384x351_0_12_n_n_12_1_1638411 rfl rfl rfl rfl rfl
    (gramArr a0 a1) (pairIdx (F := Ideal)) b p (by decide) (by decide)).trans ?_
  obtain ⟨hI, hJ⟩ := table_eq p
  rw [← gramArr_apply]
  congr 1
  funext a
  apply Fin.ext
  match a with
  | ⟨0, _⟩ => rfl
  | ⟨1, _⟩ => show min (pairIdx (F := Ideal) (ix2 p (0 : Fin 2))).toInt.toNat (27 - 1) = (triI p).val; rw [pairIdx_row]; exact hI
  | ⟨2, _⟩ => show min (pairIdx (F := Ideal) (ix2 p (1 : Fin 2))).toInt.toNat (27 - 1) = (triJ p).val; rw [pairIdx_col]; exact hJ

/-- The reference's result is G of its two arguments. -/
theorem refTerm_eq (a0 : (⟨S16384x128, .f32⟩ : BufTy).Contents (Elt Ideal)) (a1 : (⟨S16384x26x128, .f32⟩ : BufTy).Contents (Elt Ideal)) :
    refTerm a0 a1 = G a0 a1 := by
  funext i
  obtain ⟨b, p, rfl⟩ : ∃ (b : Fin 16384) (p : Fin 351), i = ix2 b p := ⟨i 0, i 1, eq_ix2 i⟩
  exact refTerm_apply a0 a1 b p

end Cert.ReferenceIdeal.RefValue

end
-- ==== Proof.lean ====
/-
  Pairwise feature interactions: for every batch row, the dot products of all pairs (i, j), i < j, of
  27 feature vectors of length 128 (one dense vector and 26 embeddings), 351 numbers per row in
  row-major order of the pairs.

  The kernel works on 32 blocks of 512 batch rows.  In a block it stacks the 27 features, contracts
  the stack with itself over the 128 coordinates into the 27 × 27 Gram matrix of every row, cuts from
  Gram row i the entries right of the diagonal, and lays the 26 cuts end to end.  The reference builds
  the same stack for all 16384 rows at once, contracts it the same way, and reads the Gram matrices at
  a constant table of the 351 index pairs.

  Over the extended reals a change of number format is the identity and both contractions are the
  same finite sum, so both programs compute, at (b, p), the sum over d of feat b (triI p) d ·
  feat b (triJ p) d (Proof/Spec.lean).  No algebraic law beyond that identity is used, and the
  finiteness of the inputs is not needed.  Proof/KernelBlock.lean reads the kernel's block at an
  element, Proof/KernelArray.lean assembles the 32 blocks into the array, Proof/RefRun.lean reads the
  reference's run back as one term, Proof/RefValue.lean reads that term at an element.  The kernel
  prints no rewritten operation, so its idealization is its own text and there is nothing to preserve.
-/
import proofs.«132378_j5403068858956_1_alg».proof.Defs
import proofs.«132378_j5403068858956_1_alg».proof.Proof.Gen.Kernel
import proofs.«132378_j5403068858956_1_alg».proof.Proof.Gen.Kernel.Skeleton
import proofs.«132378_j5403068858956_1_alg».proof.Proof.Gen.Kernel.Launch
import proofs.«132378_j5403068858956_1_alg».proof.Proof.Gen.Kernel.Points
import proofs.«132378_j5403068858956_1_alg».proof.Proof.Gen.Kernel.Frame
import proofs.«132378_j5403068858956_1_alg».proof.Proof.Gen.KernelIdeal
import proofs.«132378_j5403068858956_1_alg».proof.Proof.Gen.KernelIdeal.Skeleton
import proofs.«132378_j5403068858956_1_alg».proof.Proof.Gen.KernelIdeal.Launch
import proofs.«132378_j5403068858956_1_alg».proof.Proof.Gen.KernelIdeal.Points
import proofs.«132378_j5403068858956_1_alg».proof.Proof.Gen.KernelIdeal.Frame
import proofs.«132378_j5403068858956_1_alg».proof.Proof.Gen.KernelIdeal.Value
import proofs.«132378_j5403068858956_1_alg».proof.Proof.Gen.ReferenceIdeal
import proofs.«132378_j5403068858956_1_alg».proof.Proof.Gen.Pre_finite_inputs
import proofs.«132378_j5403068858956_1_alg».proof.Proof.Spec
import proofs.«132378_j5403068858956_1_alg».proof.Proof.KernelArray
import proofs.«132378_j5403068858956_1_alg».proof.Proof.RefRun
import proofs.«132378_j5403068858956_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of tensor operations none of which writes an argument. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the result array at G of the arguments: the kernel block by block, the
    reference through its table of pairs. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refTerm_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
